-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S2x8x4096 : Shape := ⟨3, ![2, 8, 4096]⟩
abbrev S256x4096 : Shape := ⟨2, ![256, 4096]⟩
abbrev S1x8x4096 : Shape := ⟨3, ![1, 8, 4096]⟩
abbrev S32x8x4096 : Shape := ⟨3, ![32, 8, 4096]⟩
abbrev S8x4096 : Shape := ⟨2, ![8, 4096]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x8x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x8x4096, .f32⟩
  | .local _ .vmem, ⟨5, _⟩ => ⟨S1x8x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_7 : BitVec 32 := 0#32
  let v19 : BitVec 1 := Scalar.cmpi .ne v18 c0_i32_7
  v19

def k0_cond2 (i : grid0.Coords) : BitVec 1 :=
  let arg1 : BitVec 32 := BitVec.ofNat 32 (i 1).val
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S32x8x4096 : S256x4096.ShapeCasts S32x8x4096
  reduces_S32x8x4096_S8x4096 : S32x8x4096.Reduces [0] S8x4096
  shapeCasts_S8x4096_S1x8x4096 : S8x4096.ShapeCasts S1x8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S1x8x4096 : S1x8x4096.ShapeCasts S1x8x4096
  reducesTo_S2x8x4096_S_d0_1_2 : S2x8x4096.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4096.size a ≤ S2x8x4096.size a
  hwx0_2 : ∀ i : grid0.Coords, EltTy.bits .f32 = 32 ∨ (Rect.block (s := S2x8x4096) S1x8x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.Kernel.Cases.lean ====
/-
  The grid of the one pallas_call has 2 × 32 points; point `t` has coordinates `(t / 32, t % 32)`.
  The body's two branches are decided by the second coordinate alone: the first branch (the partial
  sums REPLACE the output block) is taken exactly where `t % 32 = 0`, the second (the partial sums are
  ADDED to the output block) exactly where `t % 32 ≠ 0`. So every point takes exactly one of them.
  Also named here: the staging memrefs the body is called with at a point.
-/
import proofs.«162926_g6820408066431_feedfinal_520_2_alg».proof.Proof.Gen.Kernel.Frame
import proofs.«162926_g6820408066431_feedfinal_520_2_alg».proof.Proof.Gen.Kernel.Skeleton

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch is taken exactly at the first point of each row of the grid. -/
theorem reset_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The second branch is taken exactly at the other points. -/
theorem add_iff : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-- One staging buffer of the output window, through which the output block's contents are stated. -/
abbrev accView : View sig .tc .vmem S1x8x4096 .f32 := (Memref.whole cc0_stg2_0 : Memref sig .tc .vmem S1x8x4096 .f32).view

/-- The windows' current staging memrefs at point `t`, as the pipeline passes them to the body. -/
abbrev mem0 (t : Fin cfg0.N) : Memref sig .tc .vmem S256x4096 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S256x4096 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x8x4096 .f32 := win0_2.stage (cfg0.slots t 2)
abbrev whole2 (t : Fin cfg0.N) : (mem2 t).IsWhole := hstage0_2 ((cfg0.slots t 2).cast nbuf0_2)

end Cert.Kernel.Fold

end
-- ==== Proof.Kernel.RunReset.lean ====
/-
  The body at a point where the first branch is taken (`t % 32 = 0`): it loads the two input
  blocks, folds the 256 rows of the elementwise Huber values into 8 rows, loads the output block
  (whatever it holds) and OVERWRITES the whole output block with the folded values. The run is
  symbolic; what the output buffer ends with is recorded as the list of stores the run finds.
-/
import proofs.«162926_g6820408066431_feedfinal_520_2_alg».proof.Proof.Kernel.Cases

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output's staging memref when only the first branch is taken, with
    the proof that from whole staging memrefs — the inputs at `x0`, `x1`, the output at anything — the
    body runs to a continuation holding the inputs as they were and the output with those stores written. -/
noncomputable def runReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) :
    { L : List (View.Piece (Elt F) S1x8x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0_huber_mean i arg2 harg2 arg3 harg3 arg4 harg4) K } := by
  refine ⟨?_, fun E K => ?run⟩
  case run =>
    simp only [cc0_huber_mean_eq_skeleton]; unfold cc0_huber_mean_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fold

end
-- ==== Proof.Kernel.RunAdd.lean ====
/-
  The body at a point where the second branch is taken (`t % 32 ≠ 0`): it loads the two input
  blocks, folds the 256 rows of the elementwise Huber values into 8 rows, loads the output block
  — which holds the running sums `acc` the earlier points of this row of the grid left — and
  overwrites it with `acc` plus the folded values.
-/
import proofs.«162926_g6820408066431_feedfinal_520_2_alg».proof.Proof.Kernel.RunReset

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output's staging memref when only the second branch is taken, with
    the proof that from whole staging memrefs — the inputs at `x0`, `x1`, the output at `acc` — the body
    runs to a continuation holding the inputs as they were and the output with those stores written. -/
noncomputable def runAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) :
    { L : List (View.Piece (Elt F) S1x8x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0_huber_mean i arg2 harg2 arg3 harg3 arg4 harg4) K } := by
  refine ⟨?_, fun E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fold

end
-- ==== Proof.Kernel.Carried.lean ====
/-
  What the output block's staging buffer holds after the body at each point, and the pipeline's run.

  The output block of row `i` of the grid (points `32 i … 32 i + 31`) is one block of the result array,
  revisited at every point of the row and written back only after the row's last point. At the row's
  first point the body overwrites the buffer with the folded values of that point's input blocks; at
  every later point it adds the point's folded values to what the point before left. So the buffer's
  contents after point `n` are defined by recursion on `n`: `carried`. With these contents as the proof
  data the pipeline's body obligation holds at every point, and the library's launch theorem gives the
  run of the whole program: it terminates, the argument arrays are unchanged, and the result array is
  what the write-backs leave.
-/
import proofs.«162926_g6820408066431_feedfinal_520_2_alg».proof.Proof.Kernel.RunAdd
import Idealize.ShloMosaic.Lib.Pipeline.FrameBody
import Idealize.ShloMosaic.Lib.Pipeline.FrameSuffix

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every point takes one of the two branches, so the output window is idle nowhere. -/
theorem live2 : ∀ i : grid0.Coords, cfg0.idle 2 i = false :=
  (by decide +kernel : ∀ i : grid0.Coords, idle0 2 i = false)

/-- The one store of the overwriting branch covers the output block. -/
theorem coverReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) (y : S1x8x4096.Idx) :
    ∃ pc ∈ (runReset c i arg2 harg2 arg3 harg3 arg4 harg4 hc1 hc2 x0 x1).1, y ∈ pc.1.set :=
  View.cover_of_tiledL (runReset c i arg2 harg2 arg3 harg3 arg4 harg4 hc1 hc2 x0 x1).1 S1x8x4096.size (by sl_kernel_rfl) y

/-- What the overwriting branch leaves in the output's staging buffer. -/
def outReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) : Vec F S1x8x4096 .f32 :=
  accView.read (Elt F) (accView.writes (Elt F) accView.junk (runReset c i arg2 harg2 arg3 harg3 arg4 harg4 hc1 hc2 x0 x1).1)

/-- The one store of the adding branch covers the output block. -/
theorem coverAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) (y : S1x8x4096.Idx) :
    ∃ pc ∈ (runAdd c i arg2 harg2 arg3 harg3 arg4 harg4 hc1 hc2 x0 x1 acc).1, y ∈ pc.1.set :=
  View.cover_of_tiledL (runAdd c i arg2 harg2 arg3 harg3 arg4 harg4 hc1 hc2 x0 x1 acc).1 S1x8x4096.size (by sl_kernel_rfl) y

/-- What the adding branch leaves in the output's staging buffer, over the running sums `acc`. -/
def outAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) : Vec F S1x8x4096 .f32 :=
  accView.read (Elt F) (accView.writes (Elt F) accView.junk (runAdd c i arg2 harg2 arg3 harg3 arg4 harg4 hc1 hc2 x0 x1 acc).1)

/-! ## The running sums, point by point -/

/-- What the output's staging buffer holds after the body at position `n`: at the first point of a row of
    the grid the overwriting branch's contents, at any other the adding branch's over what position
    `n - 1` left (the buffer is not written back in between). -/
def carried (c : Dev nD) : (n : ℕ) → n < cfg0.N → Vec F S1x8x4096 .f32
  | 0, hn => outReset c (grid0.coords ⟨0, hn⟩) (mem0 ⟨0, hn⟩) (whole0 ⟨0, hn⟩) (mem1 ⟨0, hn⟩) (whole1 ⟨0, hn⟩) (mem2 ⟨0, hn⟩) (whole2 ⟨0, hn⟩)
      ((reset_iff ⟨0, hn⟩).mpr (Nat.zero_mod _)) (fun h => (add_iff ⟨0, hn⟩).mp h (Nat.zero_mod _)) (iblk m c 0 ⟨0, hn⟩) (iblk m c 1 ⟨0, hn⟩)
  | n + 1, hn =>
    if h0 : (n + 1) % 32 = 0 then
      outReset c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        ((reset_iff ⟨n + 1, hn⟩).mpr h0) (fun h => (add_iff ⟨n + 1, hn⟩).mp h h0) (iblk m c 0 ⟨n + 1, hn⟩) (iblk m c 1 ⟨n + 1, hn⟩)
    else
      outAdd c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        (fun h => h0 ((reset_iff ⟨n + 1, hn⟩).mp h)) ((add_iff ⟨n + 1, hn⟩).mpr h0) (iblk m c 0 ⟨n + 1, hn⟩) (iblk m c 1 ⟨n + 1, hn⟩)
        (carried c n (Nat.lt_of_succ_lt hn))

/-- `carried` at the first point of a row of the grid. -/
theorem carried_reset (c : Dev nD) (t : Fin cfg0.N) (h0 : t.val % 32 = 0) :
    carried m c t.val t.isLt = outReset c (grid0.coords t) (mem0 t) (whole0 t) (mem1 t) (whole1 t) (mem2 t) (whole2 t)
      ((reset_iff t).mpr h0) (fun h => (add_iff t).mp h h0) (iblk m c 0 t) (iblk m c 1 t) := by
  obtain ⟨n, hn⟩ := t
  cases n with
  | zero => exact rfl
  | succ n => exact (dif_pos h0).trans rfl

/-- `carried` at a later point of a row: over what the point before left. -/
theorem carried_add (c : Dev nD) (t : Fin cfg0.N) (h0 : ¬ t.val % 32 = 0) :
    carried m c t.val t.isLt = outAdd c (grid0.coords t) (mem0 t) (whole0 t) (mem1 t) (whole1 t) (mem2 t) (whole2 t)
      (fun h => h0 ((reset_iff t).mp h)) ((add_iff t).mpr h0) (iblk m c 0 t) (iblk m c 1 t)
      (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the running sums; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carried m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (carried m c t.val t.isLt) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later point of a row the output's current staging buffer holds what the body left at the point
    before: the point is not the first, the buffer was not written back in between (a write-back happens
    only after a row's last point), the window is live and its blocks are whole. -/
theorem before_2_add (c : Dev nD) (t : Fin cfg0.N) (h0 : ¬ t.val % 32 = 0) (d) :
    (dats m 0 c).before 2 t d = (carried m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t))

set_option maxHeartbeats 800000 in
/-- The body at any point: the inputs' memrefs hold their blocks; the point's position in its row says which
    branch runs; at a later point of a row the output's memref holds the running sums of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 32 = 0
  · rw [carried_reset m c t h0]
    unfold outReset
    iintro ⟨HΦ, Ho, ⟨%d0, H0⟩, ⟨%d1, H1⟩, ⟨%d2, H2⟩⟩
    iapply ((runReset c (grid0.coords t) _ _ _ _ _ _ ((reset_iff t).mpr h0) (fun h => (add_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverReset c _ _ _ _ _ _ _ _ _ _ _)
  · rw [carried_add m c t h0]
    simp only [before_2_add m c t h0]
    unfold outAdd
    iintro ⟨HΦ, Ho, ⟨%d0, H0⟩, ⟨%d1, H1⟩, ⟨%d2, H2⟩⟩
    iapply ((runAdd c (grid0.coords t) _ _ _ _ _ _ (fun h => h0 ((reset_iff t).mp h)) ((add_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverAdd c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have hl : cfg0.idle 2 (cfg0.grid.coords t) = false := live2 _
  rw [hl]
  exact sound_body m c t

/-! ## The run and the frame -/

set_option backward.isDefEq.respectTransparency.types false in
/-- From any memory with zero counters every weakly fair execution of the program terminates, and every final
    state has every array of the pipeline at what the write-backs leave and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fold

end
-- ==== Proof.KernelIdeal.Cases.lean ====
/-
  The grid of the one pallas_call has 2 × 32 points; point `t` has coordinates `(t / 32, t % 32)`.
  The body's two branches are decided by the second coordinate alone: the first branch (the partial
  sums REPLACE the output block) is taken exactly where `t % 32 = 0`, the second (the partial sums are
  ADDED to the output block) exactly where `t % 32 ≠ 0`. So every point takes exactly one of them.
  Also named here: the staging memrefs the body is called with at a point.
-/
import proofs.«162926_g6820408066431_feedfinal_520_2_alg».proof.Proof.Gen.KernelIdeal.Frame
import proofs.«162926_g6820408066431_feedfinal_520_2_alg».proof.Proof.Gen.KernelIdeal.Skeleton

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch is taken exactly at the first point of each row of the grid. -/
theorem reset_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The second branch is taken exactly at the other points. -/
theorem add_iff : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-- One staging buffer of the output window, through which the output block's contents are stated. -/
abbrev accView : View sig .tc .vmem S1x8x4096 .f32 := (Memref.whole cc0_stg2_0 : Memref sig .tc .vmem S1x8x4096 .f32).view

/-- The windows' current staging memrefs at point `t`, as the pipeline passes them to the body. -/
abbrev mem0 (t : Fin cfg0.N) : Memref sig .tc .vmem S256x4096 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S256x4096 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x8x4096 .f32 := win0_2.stage (cfg0.slots t 2)
abbrev whole2 (t : Fin cfg0.N) : (mem2 t).IsWhole := hstage0_2 ((cfg0.slots t 2).cast nbuf0_2)

end Cert.KernelIdeal.Fold

end
-- ==== Proof.KernelIdeal.RunReset.lean ====
/-
  The body at a point where the first branch is taken (`t % 32 = 0`): it loads the two input
  blocks, folds the 256 rows of the elementwise Huber values into 8 rows, loads the output block
  (whatever it holds) and OVERWRITES the whole output block with the folded values. The run is
  symbolic; what the output buffer ends with is recorded as the list of stores the run finds.
-/
import proofs.«162926_g6820408066431_feedfinal_520_2_alg».proof.Proof.KernelIdeal.Cases

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output's staging memref when only the first branch is taken, with
    the proof that from whole staging memrefs — the inputs at `x0`, `x1`, the output at anything — the
    body runs to a continuation holding the inputs as they were and the output with those stores written. -/
noncomputable def runReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) :
    { L : List (View.Piece (Elt F) S1x8x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0_huber_mean i arg2 harg2 arg3 harg3 arg4 harg4) K } := by
  refine ⟨?_, fun E K => ?run⟩
  case run =>
    simp only [cc0_huber_mean_eq_skeleton]; unfold cc0_huber_mean_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fold

end
-- ==== Proof.KernelIdeal.RunAdd.lean ====
/-
  The body at a point where the second branch is taken (`t % 32 ≠ 0`): it loads the two input
  blocks, folds the 256 rows of the elementwise Huber values into 8 rows, loads the output block
  — which holds the running sums `acc` the earlier points of this row of the grid left — and
  overwrites it with `acc` plus the folded values.
-/
import proofs.«162926_g6820408066431_feedfinal_520_2_alg».proof.Proof.KernelIdeal.RunReset

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output's staging memref when only the second branch is taken, with
    the proof that from whole staging memrefs — the inputs at `x0`, `x1`, the output at `acc` — the body
    runs to a continuation holding the inputs as they were and the output with those stores written. -/
noncomputable def runAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) :
    { L : List (View.Piece (Elt F) S1x8x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0_huber_mean i arg2 harg2 arg3 harg3 arg4 harg4) K } := by
  refine ⟨?_, fun E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fold

end
-- ==== Proof.KernelIdeal.Carried.lean ====
/-
  What the output block's staging buffer holds after the body at each point, and the pipeline's run.

  The output block of row `i` of the grid (points `32 i … 32 i + 31`) is one block of the result array,
  revisited at every point of the row and written back only after the row's last point. At the row's
  first point the body overwrites the buffer with the folded values of that point's input blocks; at
  every later point it adds the point's folded values to what the point before left. So the buffer's
  contents after point `n` are defined by recursion on `n`: `carried`. With these contents as the proof
  data the pipeline's body obligation holds at every point, and the library's launch theorem gives the
  run of the whole program: it terminates, the argument arrays are unchanged, and the result array is
  what the write-backs leave.
-/
import proofs.«162926_g6820408066431_feedfinal_520_2_alg».proof.Proof.KernelIdeal.RunAdd
import Idealize.ShloMosaic.Lib.Pipeline.FrameBody
import Idealize.ShloMosaic.Lib.Pipeline.FrameSuffix

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every point takes one of the two branches, so the output window is idle nowhere. -/
theorem live2 : ∀ i : grid0.Coords, cfg0.idle 2 i = false :=
  (by decide +kernel : ∀ i : grid0.Coords, idle0 2 i = false)

/-- The one store of the overwriting branch covers the output block. -/
theorem coverReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) (y : S1x8x4096.Idx) :
    ∃ pc ∈ (runReset c i arg2 harg2 arg3 harg3 arg4 harg4 hc1 hc2 x0 x1).1, y ∈ pc.1.set :=
  View.cover_of_tiledL (runReset c i arg2 harg2 arg3 harg3 arg4 harg4 hc1 hc2 x0 x1).1 S1x8x4096.size (by sl_kernel_rfl) y

/-- What the overwriting branch leaves in the output's staging buffer. -/
def outReset (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : k0_cond1 i = 1#1) (hc2 : ¬ k0_cond2 i = 1#1)
    (x0 x1 : Vec F S256x4096 .f32) : Vec F S1x8x4096 .f32 :=
  accView.read (Elt F) (accView.writes (Elt F) accView.junk (runReset c i arg2 harg2 arg3 harg3 arg4 harg4 hc1 hc2 x0 x1).1)

/-- The one store of the adding branch covers the output block. -/
theorem coverAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) (y : S1x8x4096.Idx) :
    ∃ pc ∈ (runAdd c i arg2 harg2 arg3 harg3 arg4 harg4 hc1 hc2 x0 x1 acc).1, y ∈ pc.1.set :=
  View.cover_of_tiledL (runAdd c i arg2 harg2 arg3 harg3 arg4 harg4 hc1 hc2 x0 x1 acc).1 S1x8x4096.size (by sl_kernel_rfl) y

/-- What the adding branch leaves in the output's staging buffer, over the running sums `acc`. -/
def outAdd (c : Dev nD) (i : grid0.Coords)
    (arg2 : Memref sig .tc .vmem S256x4096 .f32) (harg2 : arg2.IsWhole)
    (arg3 : Memref sig .tc .vmem S256x4096 .f32) (harg3 : arg3.IsWhole)
    (arg4 : Memref sig .tc .vmem S1x8x4096 .f32) (harg4 : arg4.IsWhole)
    (hc1 : ¬ k0_cond1 i = 1#1) (hc2 : k0_cond2 i = 1#1)
    (x0 x1 : Vec F S256x4096 .f32) (acc : Vec F S1x8x4096 .f32) : Vec F S1x8x4096 .f32 :=
  accView.read (Elt F) (accView.writes (Elt F) accView.junk (runAdd c i arg2 harg2 arg3 harg3 arg4 harg4 hc1 hc2 x0 x1 acc).1)

/-! ## The running sums, point by point -/

/-- What the output's staging buffer holds after the body at position `n`: at the first point of a row of
    the grid the overwriting branch's contents, at any other the adding branch's over what position
    `n - 1` left (the buffer is not written back in between). -/
def carried (c : Dev nD) : (n : ℕ) → n < cfg0.N → Vec F S1x8x4096 .f32
  | 0, hn => outReset c (grid0.coords ⟨0, hn⟩) (mem0 ⟨0, hn⟩) (whole0 ⟨0, hn⟩) (mem1 ⟨0, hn⟩) (whole1 ⟨0, hn⟩) (mem2 ⟨0, hn⟩) (whole2 ⟨0, hn⟩)
      ((reset_iff ⟨0, hn⟩).mpr (Nat.zero_mod _)) (fun h => (add_iff ⟨0, hn⟩).mp h (Nat.zero_mod _)) (iblk m c 0 ⟨0, hn⟩) (iblk m c 1 ⟨0, hn⟩)
  | n + 1, hn =>
    if h0 : (n + 1) % 32 = 0 then
      outReset c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        ((reset_iff ⟨n + 1, hn⟩).mpr h0) (fun h => (add_iff ⟨n + 1, hn⟩).mp h h0) (iblk m c 0 ⟨n + 1, hn⟩) (iblk m c 1 ⟨n + 1, hn⟩)
    else
      outAdd c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩)
        (fun h => h0 ((reset_iff ⟨n + 1, hn⟩).mp h)) ((add_iff ⟨n + 1, hn⟩).mpr h0) (iblk m c 0 ⟨n + 1, hn⟩) (iblk m c 1 ⟨n + 1, hn⟩)
        (carried c n (Nat.lt_of_succ_lt hn))

/-- `carried` at the first point of a row of the grid. -/
theorem carried_reset (c : Dev nD) (t : Fin cfg0.N) (h0 : t.val % 32 = 0) :
    carried m c t.val t.isLt = outReset c (grid0.coords t) (mem0 t) (whole0 t) (mem1 t) (whole1 t) (mem2 t) (whole2 t)
      ((reset_iff t).mpr h0) (fun h => (add_iff t).mp h h0) (iblk m c 0 t) (iblk m c 1 t) := by
  obtain ⟨n, hn⟩ := t
  cases n with
  | zero => exact rfl
  | succ n => exact (dif_pos h0).trans rfl

/-- `carried` at a later point of a row: over what the point before left. -/
theorem carried_add (c : Dev nD) (t : Fin cfg0.N) (h0 : ¬ t.val % 32 = 0) :
    carried m c t.val t.isLt = outAdd c (grid0.coords t) (mem0 t) (whole0 t) (mem1 t) (whole1 t) (mem2 t) (whole2 t)
      (fun h => h0 ((reset_iff t).mp h)) ((add_iff t).mpr h0) (iblk m c 0 t) (iblk m c 1 t)
      (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the running sums; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carried m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (carried m c t.val t.isLt) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later point of a row the output's current staging buffer holds what the body left at the point
    before: the point is not the first, the buffer was not written back in between (a write-back happens
    only after a row's last point), the window is live and its blocks are whole. -/
theorem before_2_add (c : Dev nD) (t : Fin cfg0.N) (h0 : ¬ t.val % 32 = 0) (d) :
    (dats m 0 c).before 2 t d = (carried m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t))

set_option maxHeartbeats 800000 in
/-- The body at any point: the inputs' memrefs hold their blocks; the point's position in its row says which
    branch runs; at a later point of a row the output's memref holds the running sums of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h0 : t.val % 32 = 0
  · rw [carried_reset m c t h0]
    unfold outReset
    iintro ⟨HΦ, Ho, ⟨%d0, H0⟩, ⟨%d1, H1⟩, ⟨%d2, H2⟩⟩
    iapply ((runReset c (grid0.coords t) _ _ _ _ _ _ ((reset_iff t).mpr h0) (fun h => (add_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverReset c _ _ _ _ _ _ _ _ _ _ _)
  · rw [carried_add m c t h0]
    simp only [before_2_add m c t h0]
    unfold outAdd
    iintro ⟨HΦ, Ho, ⟨%d0, H0⟩, ⟨%d1, H1⟩, ⟨%d2, H2⟩⟩
    iapply ((runAdd c (grid0.coords t) _ _ _ _ _ _ (fun h => h0 ((reset_iff t).mp h)) ((add_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverAdd c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have hl : cfg0.idle 2 (cfg0.grid.coords t) = false := live2 _
  rw [hl]
  exact sound_body m c t

/-! ## The run and the frame -/

set_option backward.isDefEq.respectTransparency.types false in
/-- From any memory with zero counters every weakly fair execution of the program terminates, and every final
    state has every array of the pipeline at what the write-backs leave and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fold

end
-- ==== Proof.KernelIdeal.Pieces.lean ====
/-
  What the two branches leave in the output block, as values: the overwriting branch leaves the folded
  block `k0_pay1 x0 x1` of the point's two input blocks, the adding branch `k0_pay2 x0 x1 acc`, the
  running sums plus that folded block. Each branch ends in ONE store that covers the whole output block,
  so reading the block back gives that store's value; the loads feeding it read whole buffers.
-/
import proofs.«162926_g6820408066431_feedfinal_520_2_alg».proof.Proof.KernelIdeal.Carried
import Idealize.ShloMosaic.Lib.Pipeline.Value

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl
theorem zero2 : (![0, 0] : Fin 2 → Nat) = fun _ => 0 := funext fun a => by fin_cases a <;> rfl

/-- The overwriting branch leaves the folded block of the two input blocks. -/
theorem outReset_eq (c : Dev nD) (i : grid0.Coords)
    (a2 : Memref sig .tc .vmem S256x4096 .f32) (h2 : a2.IsWhole)
    (a3 : Memref sig .tc .vmem S256x4096 .f32) (h3 : a3.IsWhole)
    (a4 : Memref sig .tc .vmem S1x8x4096 .f32) (h4 : a4.IsWhole)
    (hc1 : k0_cond1 i = 1#1) (hc2 : ¬ k0_cond2 i = 1#1)
    (x0 x1 : Vec F S256x4096 .f32) :
    outReset c i a2 h2 a3 h3 a4 h4 hc1 hc2 x0 x1 = k0_pay1 x0 x1 := by
  unfold outReset
  rw [View.read_writes_eq_canon _ _ _ (coverReset c i a2 h2 a3 h3 a4 h4 hc1 hc2 x0 x1)]
  unfold runReset
  dsimp only
  sl_unfold_words
  rw [View.canon_unit_zero zero3]
  simp only [View.readAt_eq_ld, h2.read_unread, h3.read_unread, View.ld_unit_zero (S := S256x4096) zero2]

/-- The adding branch leaves the running sums plus the folded block. -/
theorem outAdd_eq (c : Dev nD) (i : grid0.Coords)
    (a2 : Memref sig .tc .vmem S256x4096 .f32) (h2 : a2.IsWhole)
    (a3 : Memref sig .tc .vmem S256x4096 .f32) (h3 : a3.IsWhole)
    (a4 : Memref sig .tc .vmem S1x8x4096 .f32) (h4 : a4.IsWhole)
    (hc1 : ¬ k0_cond1 i = 1#1) (hc2 : k0_cond2 i = 1#1)
    (x0 x1 : Vec F S256x4096 .f32) (acc : Vec F S1x8x4096 .f32) :
    outAdd c i a2 h2 a3 h3 a4 h4 hc1 hc2 x0 x1 acc = k0_pay2 x0 x1 acc := by
  unfold outAdd
  rw [View.read_writes_eq_canon _ _ _ (coverAdd c i a2 h2 a3 h3 a4 h4 hc1 hc2 x0 x1 acc)]
  unfold runAdd
  dsimp only
  sl_unfold_words
  rw [View.canon_unit_zero zero3]
  simp only [View.readAt_eq_ld, h2.read_unread, h3.read_unread, h4.read_unread,
    View.ld_unit_zero (S := S256x4096) zero2, View.ld_unit_zero (S := S1x8x4096) zero3]

end Cert.KernelIdeal.Fold

end
-- ==== Proof.Spec.lean ====
/-
  The mathematics both programs compute, over the extended reals.

  `huber a b` is Huber's loss with threshold 1 of the difference `d = a - b`: `(1/2 · d) · d` where
  `|d| ≤ 1` and `1 · (|d| - 1/2)` elsewhere, spelled with the very operations and constants both
  programs apply elementwise, so that neither side ever has to evaluate it.

  The kernel walks the 16384 rows in 2 × 32 blocks of 256 rows and folds each block's rows into 8
  rows: row `8 r + s` of a block goes to row `s`. `foldRow r s` is that row of a block, and
  `rowOf h j r s` the row of the whole array that half `h`, block `j` of the half, and row `8 r + s`
  of the block name: `(32 h + j) · 256 + 8 r + s`.
-/
import Idealize.ShloMosaic.PureOps.Ideal
import Idealize.ShloMosaic.PureOps.Ideal.Laws
import Idealize.ShloMosaic.Lib.ValueIdx

noncomputable section

namespace Cert.HuberMean

open Idealize.ShloMosaic

/-- Huber's loss (threshold 1) of `a - b`, as both programs spell it. -/
def huber (a b : Ideal .f32) : Ideal .f32 :=
  Scalar.select (FloatOps.cmpf .ole (FloatOps.absf (FloatOps.subf a b)) (FloatOps.ofBits .f32 0x3F800000#32))
    (FloatOps.mulf (FloatOps.mulf (FloatOps.ofBits .f32 0x3F000000#32) (FloatOps.subf a b)) (FloatOps.subf a b))
    (FloatOps.mulf (FloatOps.ofBits .f32 0x3F800000#32)
      (FloatOps.subf (FloatOps.absf (FloatOps.subf a b)) (FloatOps.ofBits .f32 0x3F000000#32)))

/-- Row `8 r + s` of a block of 256 rows: the `r`-th of the 32 rows folded into row `s`. -/
def foldRow (r : Fin 32) (s : Fin 8) : Fin 256 := ⟨r.val * 8 + s.val, by omega⟩

/-- Row `(32 h + j) · 256 + 8 r + s` of the whole array. -/
def rowOf (h : Fin 2) (j r : Fin 32) (s : Fin 8) : Fin 16384 :=
  ⟨(h.val * 32 + j.val) * 256 + (r.val * 8 + s.val), by omega⟩

end Cert.HuberMean

end
-- ==== Proof.KernelIdeal.Folded.lean ====
/-
  The body's arithmetic read at an index, over the extended reals. The values the body stores are
  functions of the two input blocks `x0`, `x1` (256 × 4096 each): the elementwise Huber values,
  regrouped as 32 × 8 × 4096 and summed over the leading axis, so that entry `(0, s, l)` of the stored
  1 × 8 × 4096 block is the sum over `r < 32` of Huber's loss at row `8 r + s`, column `l`; and, at
  a later point of a row of the grid, that block added to the running sums.
-/
import proofs.«162926_g6820408066431_feedfinal_520_2_alg».proof.Proof.Spec
import proofs.«162926_g6820408066431_feedfinal_520_2_alg».proof.Proof.Gen.KernelIdeal.Skeleton
import Idealize.ShloMosaic.Lib.Pipeline.Value
import Idealize.ShloMosaic.Lib.ValueLayout

noncomputable section

namespace Cert.KernelIdeal.Folded

open Idealize.ShloMosaic Idealize.ShloMosaic.ValueIdx Cert.KernelIdeal Cert.KernelIdeal.Gen Cert.HuberMean

/-- The index of the 32 × 8 × 4096 regrouping that the sum over the leading axis reads at `(s, l)` for its
    `r`-th term is `(r, s, l)`. -/
theorem lift_eq (s : Fin 8) (l : Fin 4096) (r : Fin 32) :
    reduces_S32x8x4096_S8x4096.lift (ix2 s l) r = ix3 r s l := by
  funext a
  match a with
  | ⟨0, _⟩ => exact Fin.ext rfl
  | ⟨1, _⟩ => exact Fin.ext rfl
  | ⟨2, _⟩ => exact Fin.ext rfl

/-- The folded block at `(0, s, l)`: the sum over the 32 rows `8 r + s` of Huber's loss in column `l`. -/
theorem fold_apply (x0 x1 : Vec Ideal S256x4096 .f32) (s : Fin 8) (l : Fin 4096) :
    k0_pay1 (F := Ideal) x0 x1 (ix3 (0 : Fin 1) s l)
      = ∑ r : Fin 32, huber (x0 (ix2 (foldRow r s) l)) (x1 (ix2 (foldRow r s) l)) := by
  unfold k0_pay1
  dsimp only
  -- entry (0, s, l) of the 1 × 8 × 4096 block is entry (s, l) of the 8 × 4096 one: same row-major position
  rw [shapeCast_apply _ shapeCasts_S8x4096_S1x8x4096 (ix3 (0 : Fin 1) s l) (ix2 s l)
    (by rw [Shape.rowMajor_val_two, Shape.rowMajor_val_three]; simp)]
  -- the sum over the leading axis, term by term
  refine (Ideal.multiReduction_add_single _ 0x00000000#32 reduces_S32x8x4096_S8x4096 (.inl rfl) rfl (ix2 s l)).trans ?_
  refine Finset.sum_congr rfl fun r _ => ?_
  rw [lift_eq s l r]
  -- entry (r, s, l) of the regrouping is entry (8 r + s, l) of the 256 × 4096 block
  rw [shapeCast_apply _ shapeCasts_S256x4096_S32x8x4096 (ix3 (r : Fin 32) s l) (ix2 (foldRow r s) l)
    (by rw [Shape.rowMajor_val_two, Shape.rowMajor_val_three]; simp [foldRow])]
  -- the elementwise operations at that entry are Huber's loss as spelled
  rfl

/-- The adding branch's stored block: the running sums plus the folded block, entry by entry. -/
theorem add_apply (x0 x1 : Vec Ideal S256x4096 .f32) (acc : Vec Ideal S1x8x4096 .f32) (o : S1x8x4096.Idx) :
    k0_pay2 (F := Ideal) x0 x1 acc o = acc o + k0_pay1 (F := Ideal) x0 x1 o := by
  unfold k0_pay2
  rw [shapeCast_self]
  rfl

end Cert.KernelIdeal.Folded

end
-- ==== Proof.KernelIdeal.Sums.lean ====
/-
  The result array after the run, over the extended reals.

  At point `t = 32 h + k` the two input windows hold rows `256 t … 256 t + 255` of the argument arrays.
  Write `blockSum t s l` for the sum over `r < 32` of Huber's loss at row `8 r + s`, column `l` of
  that block. The output block's entry `(0, s, l)` after point `32 h + k` is the sum of `blockSum` over
  the points `32 h … 32 h + k` (by induction on the point: the first point of a row of the grid
  overwrites, every later one adds), so after the row's last point it is the sum over all 32 blocks of
  half `h`; that is what the one write-back of the row puts into block `h` of the result array, and
  the two write-backs cover the array.
-/
import proofs.«162926_g6820408066431_feedfinal_520_2_alg».proof.Proof.KernelIdeal.Pieces
import proofs.«162926_g6820408066431_feedfinal_520_2_alg».proof.Proof.KernelIdeal.Folded
import Idealize.ShloMosaic.Lib.Pipeline.Value

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.HuberMean Cert.KernelIdeal.Folded Idealize.ShloMosaic.ValueIdx

variable (m : (ℓ : Loc nD τ sig) → Buf (Elt Ideal) ℓ) (ρ : Dev nD → PrngReg)

/-- The two argument arrays as the region finds them, and the two input blocks at a point, at their literal types. -/
abbrev arr0 (c : Dev nD) : Vec Ideal S16384x4096 .f32 := V m c main_arg0
abbrev arr1 (c : Dev nD) : Vec Ideal S16384x4096 .f32 := V m c main_arg1
abbrev blk0 (c : Dev nD) (t : Fin cfg0.N) : Vec Ideal S256x4096 .f32 := iblk m c 0 t
abbrev blk1 (c : Dev nD) (t : Fin cfg0.N) : Vec Ideal S256x4096 .f32 := iblk m c 1 t

/-- The printed index maps over the grid: the inputs' block at point `t` is block `t` of the rows, the
    output's is block `t / 32` of the leading axis. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- Entry `(y, l)` of the first input block at point `t` is entry `(256 t + y, l)` of the first array. -/
theorem blk0_apply (c : Dev nD) (t : Fin cfg0.N) (y : Fin 256) (l : Fin 4096) (row : Fin 16384)
    (hrow : row.val = t.val * 256 + y.val) :
    blk0 m c t (ix2 y l) = arr0 m c (ix2 row l) := by
  obtain ⟨e0, e1, -⟩ := index_facts t
  unfold blk0 iblk
  rw [View.read_apply]
  show V m c main_arg0 _ = V m c main_arg0 _
  congr 1
  funext a
  apply Fin.ext
  match a with
  | ⟨0, _⟩ => show win0_0.index t (0 : Fin 2) * 256 + 1 * y.val = row.val; rw [e0, hrow]; omega
  | ⟨1, _⟩ => show win0_0.index t (1 : Fin 2) * 4096 + 1 * l.val = l.val; rw [e1]; omega

/-- The same for the second input. -/
theorem blk1_apply (c : Dev nD) (t : Fin cfg0.N) (y : Fin 256) (l : Fin 4096) (row : Fin 16384)
    (hrow : row.val = t.val * 256 + y.val) :
    blk1 m c t (ix2 y l) = arr1 m c (ix2 row l) := by
  obtain ⟨-, -, e0, e1, -⟩ := index_facts t
  unfold blk1 iblk
  rw [View.read_apply]
  show V m c main_arg1 _ = V m c main_arg1 _
  congr 1
  funext a
  apply Fin.ext
  match a with
  | ⟨0, _⟩ => show win0_1.index t (0 : Fin 2) * 256 + 1 * y.val = row.val; rw [e0, hrow]; omega
  | ⟨1, _⟩ => show win0_1.index t (1 : Fin 2) * 4096 + 1 * l.val = l.val; rw [e1]; omega

/-- Huber's loss summed over the 32 rows `8 r + s` of the input blocks at point `t`, column `l`. -/
def blockSum (c : Dev nD) (t : Fin cfg0.N) (s : Fin 8) (l : Fin 4096) : EReal :=
  ∑ r : Fin 32, huber (blk0 m c t (ix2 (foldRow r s) l)) (blk1 m c t (ix2 (foldRow r s) l))

/-- The running sums by the body's own recursion: a row's first point starts them, a later point adds. -/
def running (c : Dev nD) : (n : ℕ) → n < cfg0.N → Fin 8 → Fin 4096 → EReal
  | 0, hn => blockSum m c ⟨0, hn⟩
  | n + 1, hn =>
    if (n + 1) % 32 = 0 then blockSum m c ⟨n + 1, hn⟩
    else fun s l => running c n (Nat.lt_of_succ_lt hn) s l + blockSum m c ⟨n + 1, hn⟩ s l

theorem running_reset (c : Dev nD) (n : ℕ) (hn : n < cfg0.N) (h0 : n % 32 = 0) :
    running m c n hn = blockSum m c ⟨n, hn⟩ := by
  cases n with
  | zero => rfl
  | succ n => exact if_pos h0

theorem running_add (c : Dev nD) (n : ℕ) (hn : n + 1 < cfg0.N) (h0 : ¬ (n + 1) % 32 = 0) (s : Fin 8) (l : Fin 4096) :
    running m c (n + 1) hn s l = running m c n (Nat.lt_of_succ_lt hn) s l + blockSum m c ⟨n + 1, hn⟩ s l := by
  have h : running m c (n + 1) hn
      = fun s l => running m c n (Nat.lt_of_succ_lt hn) s l + blockSum m c ⟨n + 1, hn⟩ s l := if_neg h0
  rw [h]

/-- The output block after point `n`, entry by entry, is the running sum. -/
theorem carried_apply (c : Dev nD) : ∀ (n : ℕ) (hn : n < cfg0.N) (s : Fin 8) (l : Fin 4096),
    carried m c n hn (ix3 (0 : Fin 1) s l) = running m c n hn s l
  | 0, hn, s, l => by
    rw [carried_reset m c ⟨0, hn⟩ rfl, outReset_eq]
    exact fold_apply _ _ s l
  | n + 1, hn, s, l => by
    by_cases h0 : (n + 1) % 32 = 0
    · rw [carried_reset m c ⟨n + 1, hn⟩ h0, outReset_eq, running_reset m c (n + 1) hn h0]
      exact fold_apply _ _ s l
    · rw [carried_add m c ⟨n + 1, hn⟩ h0, outAdd_eq, add_apply, fold_apply, running_add m c n hn h0]
      show carried m c n _ (ix3 (0 : Fin 1) s l) + _ = _
      rw [carried_apply c n]
      rfl

end Cert.KernelIdeal.Fold

end
-- ==== Proof.RowSum.lean ====
/-
  Running sums along a row of 32 points: if a sequence `R` restarts at `B n` wherever `n` is a multiple
  of 32 and adds `B (n + 1)` to `R n` at every other step, then at the end of row `h` it is the sum of
  `B` over the row's 32 points.
-/
import proofs.«162926_g6820408066431_feedfinal_520_2_alg».proof.Proof.Spec

noncomputable section

namespace Cert.HuberMean

/-- After point `k` of row `h` the running sum is the sum of the row's first `k + 1` points. -/
theorem row_partial (B R : ℕ → EReal)
    (hreset : ∀ n, n < 64 → n % 32 = 0 → R n = B n)
    (hadd : ∀ n, n + 1 < 64 → ¬ (n + 1) % 32 = 0 → R (n + 1) = R n + B (n + 1))
    (h : Fin 2) (k : ℕ) (hk : k ≤ 31) :
    R (32 * h.val + k) = ∑ j ∈ Finset.range (k + 1), B (32 * h.val + j) := by
  induction k with
  | zero =>
    rw [Finset.sum_range_one]
    exact hreset _ (by omega) (by omega)
  | succ k ih =>
    rw [Finset.sum_range_succ, ← ih (by omega)]
    exact hadd (32 * h.val + k) (by omega) (by omega)

/-- After the last point of row `h` the running sum is the row's total. -/
theorem row_total (B R : ℕ → EReal)
    (hreset : ∀ n, n < 64 → n % 32 = 0 → R n = B n)
    (hadd : ∀ n, n + 1 < 64 → ¬ (n + 1) % 32 = 0 → R (n + 1) = R n + B (n + 1))
    (h : Fin 2) : R (32 * h.val + 31) = ∑ j : Fin 32, B (32 * h.val + j.val) := by
  rw [row_partial B R hreset hadd h 31 (le_refl _), Fin.sum_univ_eq_sum_range (fun j => B (32 * h.val + j)) 32]

end Cert.HuberMean

end
-- ==== Proof.KernelIdeal.Result.lean ====
/-
  The result array after the run as ONE function of the argument arrays: entry `(h, s, l)` is the sum,
  over the 32 blocks `j` of half `h` and the 32 rows `8 r + s` of a block, of Huber's loss at row
  `(32 h + j) · 256 + 8 r + s`, column `l`.
-/
import proofs.«162926_g6820408066431_feedfinal_520_2_alg».proof.Proof.KernelIdeal.Sums
import proofs.«162926_g6820408066431_feedfinal_520_2_alg».proof.Proof.RowSum

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.HuberMean Cert.KernelIdeal.Folded Idealize.ShloMosaic.ValueIdx

variable (m : (ℓ : Loc nD τ sig) → Buf (Elt Ideal) ℓ) (ρ : Dev nD → PrngReg)

/-- A block's sum in terms of the argument arrays: block `j` of half `h` holds rows `(32 h + j) · 256 …`. -/
theorem blockSum_eq (c : Dev nD) (t : Fin cfg0.N) (h : Fin 2) (j : Fin 32) (s : Fin 8) (l : Fin 4096)
    (ht : t.val = 32 * h.val + j.val) :
    blockSum m c t s l
      = ∑ r : Fin 32, huber (arr0 m c (ix2 (rowOf h j r s) l)) (arr1 m c (ix2 (rowOf h j r s) l)) := by
  unfold blockSum
  refine Finset.sum_congr rfl fun r _ => ?_
  have hrow : (rowOf h j r s).val = t.val * 256 + (foldRow r s).val := by
    show (h.val * 32 + j.val) * 256 + (r.val * 8 + s.val) = t.val * 256 + (r.val * 8 + s.val)
    rw [ht]; omega
  have e0 := blk0_apply m c t (foldRow r s) l (rowOf h j r s) hrow
  have e1 := blk1_apply m c t (foldRow r s) l (rowOf h j r s) hrow
  rw [e0, e1]

/-- After the last point of row `h` of the grid the running sums are the totals over the row's 32 blocks. -/
theorem running_last (c : Dev nD) (h : Fin 2) (s : Fin 8) (l : Fin 4096) (hn : 32 * h.val + 31 < cfg0.N) :
    running m c (32 * h.val + 31) hn s l
      = ∑ j : Fin 32, ∑ r : Fin 32, huber (arr0 m c (ix2 (rowOf h j r s) l)) (arr1 m c (ix2 (rowOf h j r s) l)) := by
  have hN : cfg0.N = 64 := N_0
  have key := row_total
    (fun n => if hb : n < cfg0.N then blockSum m c ⟨n, hb⟩ s l else 0)
    (fun n => if hb : n < cfg0.N then running m c n hb s l else 0)
    (fun n hn64 h0 => by
      have hb : n < cfg0.N := by omega
      simp only [dif_pos hb]
      rw [running_reset m c n hb h0])
    (fun n hn64 h0 => by
      have hb : n + 1 < cfg0.N := by omega
      have hb' : n < cfg0.N := by omega
      simp only [dif_pos hb, dif_pos hb']
      exact running_add m c n hb h0 s l)
    h
  simp only [dif_pos hn] at key
  rw [key]
  refine Finset.sum_congr rfl fun j _ => ?_
  have hb : 32 * h.val + j.val < cfg0.N := by have := j.isLt; have := h.isLt; omega
  rw [dif_pos hb]
  exact blockSum_eq m c ⟨32 * h.val + j.val, hb⟩ h j s l rfl

/-- Entry `(h, s, l)` of the result array. -/
def totalAt (c : Dev nD) (h : Fin 2) (s : Fin 8) (l : Fin 4096) : EReal :=
  ∑ j : Fin 32, ∑ r : Fin 32, huber (arr0 m c (ix2 (rowOf h j r s) l)) (arr1 m c (ix2 (rowOf h j r s) l))

/-- The result array. -/
def total (c : Dev nD) : Vec Ideal S2x8x4096 .f32 := fun o => totalAt m c (o 0) (o 1) (o 2)

/-- The output block after the last point of row `t / 32` of the grid, entry by entry. -/
theorem carried_last (c : Dev nD) (t : Fin cfg0.N) (h31 : t.val % 32 = 31) (hlt : t.val / 32 < 2) (y : S1x8x4096.Idx) :
    carried m c t.val t.isLt y = totalAt m c ⟨t.val / 32, hlt⟩ (y 1) (y 2) := by
  have h0 : (y 0).val < 1 := (y 0).isLt
  have hy : y = ix3 (0 : Fin 1) (y 1) (y 2) := by
    funext a
    match a with
    | ⟨0, _⟩ => exact Fin.ext (by show (y 0).val = 0; omega)
    | ⟨1, _⟩ => rfl
    | ⟨2, _⟩ => rfl
  have ht : t.val = 32 * (⟨t.val / 32, hlt⟩ : Fin 2).val + 31 := by show t.val = 32 * (t.val / 32) + 31; omega
  have hlast := running_last m c ⟨t.val / 32, hlt⟩ (y 1) (y 2) (by rw [← ht]; exact t.isLt)
  have hrun : ∀ (n : ℕ) (hn : n < cfg0.N), n = t.val →
      running m c t.val t.isLt (y 1) (y 2) = running m c n hn (y 1) (y 2) := by
    intro n hn e; subst e; rfl
  calc carried m c t.val t.isLt y
      = carried m c t.val t.isLt (ix3 (0 : Fin 1) (y 1) (y 2)) := congrArg _ hy
    _ = running m c t.val t.isLt (y 1) (y 2) := carried_apply m c t.val t.isLt (y 1) (y 2)
    _ = running m c (32 * (⟨t.val / 32, hlt⟩ : Fin 2).val + 31) (by rw [← ht]; exact t.isLt) (y 1) (y 2) :=
        hrun _ _ ht.symm
    _ = totalAt m c ⟨t.val / 32, hlt⟩ (y 1) (y 2) := hlast

/-- Position `(0, s, l)` of the output's block at point `t` is entry `(t / 32, s, l)` of the result array. -/
theorem emb_eq (t : Fin cfg0.N) (hlt : t.val / 32 < 2) (y : S1x8x4096.Idx) :
    ((cfg0.win 2).blk t).view.emb y = ix3 (⟨t.val / 32, hlt⟩ : Fin 2) (y 1) (y 2) := by
  obtain ⟨-, -, -, -, e0, e1, e2⟩ := index_facts t
  have h0 : (y 0).val < 1 := (y 0).isLt
  funext a
  apply Fin.ext
  match a with
  | ⟨0, _⟩ => show win0_2.index t (0 : Fin 3) * 1 + 1 * (y 0).val = t.val / 32; rw [e0]; omega
  | ⟨1, _⟩ => show win0_2.index t (1 : Fin 3) * 8 + 1 * (y 1).val = (y 1).val; rw [e1]; omega
  | ⟨2, _⟩ => show win0_2.index t (2 : Fin 3) * 4096 + 1 * (y 2).val = (y 2).val; rw [e2]; omega

/-- What the write-back after the last point of a row of the grid writes is that row's block of `total`. -/
theorem flushed_eq (c : Dev nD) (t : Fin cfg0.N) (hf : (cfg0.win 2).flush t = true) :
    (dats m 0 c).flushed 2 t = ((cfg0.win 2).blk t).view.read (Elt Ideal) (total m c) := by
  have hN : cfg0.N = 64 := N_0
  have h31 : t.val % 32 = 31 := (flush0_2 t).mp hf
  have hlt : t.val / 32 < 2 := by have := t.isLt; omega
  show (cfg0.win 2).cut (grid0.coords t) ((dats m 0 c).after 2 t) = _
  rw [after_2]
  funext y
  rw [View.read_apply]
  exact (carried_last m c t h31 hlt y).trans (congrArg (total m c) (emb_eq t hlt y)).symm

/-- The two write-backs cover the result array: entry `(h, s, l)` lies in the block written after point `32 h + 31`. -/
theorem covered (i : S2x8x4096.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 8 := (i 1).isLt
  have h2 : (i 2).val < 4096 := (i 2).isLt
  let t : Fin cfg0.N := ⟨32 * (i 0).val + 31, by omega⟩
  obtain ⟨-, -, -, -, e0, e1, e2⟩ := index_facts t
  refine ⟨t, (flush0_2 t).mpr (by show (32 * (i 0).val + 31) % 32 = 31; omega), ?_⟩
  show i ∈ ((View.whole main_v0).slice (win0_2.rect t)).set
  rw [View.set_slice_whole, Rect.mem_set_unit]
  have e0' : win0_2.index t (0 : Fin 3) = (i 0).val := by rw [e0]; show (32 * (i 0).val + 31) / 32 = (i 0).val; omega
  intro a
  match a with
  | ⟨0, _⟩ => show win0_2.index t (0 : Fin 3) * 1 ≤ (i 0).val ∧ (i 0).val < win0_2.index t (0 : Fin 3) * 1 + 1
              rw [e0']; omega
  | ⟨1, _⟩ => show win0_2.index t (1 : Fin 3) * 8 ≤ (i 1).val ∧ (i 1).val < win0_2.index t (1 : Fin 3) * 8 + 8
              rw [e1]; omega
  | ⟨2, _⟩ => show win0_2.index t (2 : Fin 3) * 4096 ≤ (i 2).val ∧ (i 2).val < win0_2.index t (2 : Fin 3) * 4096 + 4096
              rw [e2]; omega

/-- So the result array ends holding `total`. -/
theorem final (c : Dev nD) : (dats m 0 c).arrAt 2 cfg0.N = total m c :=
  (dats m 0 c).arrAt_eq_of_cover 2 (total m c) (flushed_eq m c) covered

end Cert.KernelIdeal.Fold

end
-- ==== Proof.KernelIdeal.Tail.lean ====
/-
  The host lines after the region: the program's result is the total of the result array (zero plus
  the sum of all its 2 × 8 × 4096 entries) times the constant `2⁻²⁶`, the result array being what the
  pipeline's write-backs left.
-/
import proofs.«162926_g6820408066431_feedfinal_520_2_alg».proof.Proof.KernelIdeal.Carried
import Idealize.ShloMosaic.Lib.StableHlo.Run

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the lines after the region leave in the result buffer. -/
theorem tail_result (c : Dev nD) :
    Pipeline.afterTail₀ cfgs (dats m) 0 (V0 m) [hostOps1] c main_v2
      = mulf (Host.reduceAdd (((dats m 0 c).arrAt 2 cfg0.N : Buf (Elt F) ((c.tc : Thread nD τ).loc main_v0)))
            (constant S_ .f32 0x00000000#32) reducesTo_S2x8x4096_S_d0_1_2 h_S_)
          (constant S_ .f32 0x32800000#32) := by
  -- the four lines after the region, read at the result's reference: the product of the total and the constant
  unfold Pipeline.afterTail₀
  simp only [List.flatten_cons, List.flatten_nil, List.append_nil]
  show StableHlo.after hostOps1 _ (Proc.devRef .tc main_v2) = _
  after_results
  -- the result array is the pipeline's third array, which the region leaves at what the write-backs left
  rw [show Pipeline.withArrays (cfgs 0).spec c (V0 m c) (fun w => (dats m 0 c).arrAt w (cfgs 0).N) (Proc.devRef .tc main_v0)
      = (dats m 0 c).arrAt 2 cfg0.N from Pipeline.withArrays_arr spec0 launch0.win.arr_inj c _ _ 2]

end Cert.KernelIdeal.Fold

end
-- ==== Proof.KernelIdeal.Scaled.lean ====
/-
  The host lines after the region, read at an index over the extended reals: the total of an array
  of 2 × 8 × 4096 extended reals from zero, times the constant whose word is `0x32800000`.
-/
import proofs.«162926_g6820408066431_feedfinal_520_2_alg».proof.Proof.Gen.KernelIdeal
import Idealize.ShloMosaic.PureOps.Ideal.Laws
import Idealize.ShloMosaic.Lib.ValueIdx

noncomputable section

namespace Cert.KernelIdeal.Scaled

open Idealize.ShloMosaic Idealize.ShloMosaic.ValueIdx Cert.KernelIdeal Cert.KernelIdeal.Gen

/-- The scaled total at its one index. -/
theorem scaled_apply (T : Vec Ideal S2x8x4096 .f32) (i : S_.Idx) :
    (mulf (Host.reduceAdd (F := Ideal) T (constant S_ .f32 0x00000000#32) reducesTo_S2x8x4096_S_d0_1_2 h_S_)
        (constant S_ .f32 0x32800000#32) : Vec Ideal S_ .f32) i
      = (Ideal.ofBits .f32 0x00000000#32 + ∑ o : S2x8x4096.Idx, T o) * Ideal.ofBits .f32 0x32800000#32 := by
  rw [mulf_apply, constant_apply]
  simp only [Host.reduceAdd, Ideal.hostReduceAdd_def]
  -- the host's sum into the one-entry shape is its initial value plus the total over every index
  rw [Ideal.hostReduceAdd_total reducesTo_S2x8x4096_S_d0_1_2 (fun b => b.elim0) T _ i, constant_apply]

end Cert.KernelIdeal.Scaled

end
-- ==== Proof.Mean.lean ====
/-
  The one law that joins the two programs: summing Huber's loss over the 2 × 8 × 4096 folded sums of
  the kernel — each the sum over the 32 blocks `j` of a half and the 32 rows `8 r + s` of a block — is
  summing it over all 16384 × 4096 entries, because `(h, j, r, s) ↦ (32 h + j) · 256 + 8 r + s` is a
  bijection onto the rows; and multiplying by `2⁻²⁶` is dividing by `2²⁶` on every extended real.
-/
import proofs.«162926_g6820408066431_feedfinal_520_2_alg».proof.Proof.Spec

noncomputable section

namespace Cert.HuberMean

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- Half `h`, folded row `s`, block `j` of the half and fold step `r` name each of the 16384 rows exactly once:
    `(h, s, j, r) ↦ (32 h + j) · 256 + 8 r + s` is a bijection, with the quotients and remainders as its inverse. -/
def rowEquiv : Fin 2 × Fin 8 × Fin 32 × Fin 32 ≃ Fin 16384 where
  toFun p := rowOf p.1 p.2.2.1 p.2.2.2 p.2.1
  invFun n := (⟨n.val / 8192, by omega⟩, ⟨n.val % 8, by omega⟩, ⟨n.val / 256 % 32, by omega⟩, ⟨n.val % 256 / 8, by omega⟩)
  left_inv := by
    rintro ⟨h, s, j, r⟩
    simp only [rowOf, Prod.mk.injEq, Fin.ext_iff]
    refine ⟨?_, ?_, ?_, ?_⟩ <;> omega
  right_inv := by
    intro n
    simp only [rowOf, Fin.ext_iff]
    omega

/-- Summing over halves, folded rows, blocks and fold steps is summing over the rows. -/
theorem sum_rows {M : Type*} [AddCommMonoid M] (g : Fin 16384 → M) :
    ∑ h : Fin 2, ∑ s : Fin 8, ∑ j : Fin 32, ∑ r : Fin 32, g (rowOf h j r s) = ∑ row : Fin 16384, g row := by
  rw [← Equiv.sum_comp rowEquiv g]
  simp only [Fintype.sum_prod_type]
  rfl

/-- The word `0x32800000` denotes `2⁻²⁶`. -/
theorem ofBits_inv : Ideal.ofBits .f32 0x32800000#32 = ((1 / 67108864 : ℝ) : EReal) := by
  simp [Ideal.ofBits, Ideal.ieee, -EReal.coe_mul]; norm_num

/-- The word `0x4C800000` denotes `2²⁶`. -/
theorem ofBits_pow : Ideal.ofBits .f32 0x4C800000#32 = ((67108864 : ℝ) : EReal) := by
  simp [Ideal.ofBits, Ideal.ieee, -EReal.coe_mul]; norm_num

/-- The folded sums add up to the sum of all entries. -/
theorem sum_fold (H : (⟨2, ![16384, 4096]⟩ : Shape).Idx → EReal) (O : (⟨3, ![2, 8, 4096]⟩ : Shape).Idx → EReal)
    (hO : ∀ (h : Fin 2) (s : Fin 8) (l : Fin 4096),
      O (ix3 h s l) = ∑ j : Fin 32, ∑ r : Fin 32, H (ix2 (rowOf h j r s) l)) :
    ∑ o, O o = ∑ i, H i := by
  rw [sum_idx3, sum_idx2, ← sum_rows (fun row => ∑ l : Fin 4096, H (ix2 row l))]
  refine Finset.sum_congr rfl (fun h _ => Finset.sum_congr rfl (fun s _ => ?_))
  simp only [hO]
  rw [Finset.sum_comm]
  exact Finset.sum_congr rfl (fun j _ => Finset.sum_comm)

/-- The kernel's scaled total of the folded sums is the reference's mean. -/
theorem mean_eq (H : (⟨2, ![16384, 4096]⟩ : Shape).Idx → EReal) (O : (⟨3, ![2, 8, 4096]⟩ : Shape).Idx → EReal)
    (hO : ∀ (h : Fin 2) (s : Fin 8) (l : Fin 4096),
      O (ix3 h s l) = ∑ j : Fin 32, ∑ r : Fin 32, H (ix2 (rowOf h j r s) l)) :
    (Ideal.ofBits .f32 0x00000000#32 + ∑ o, O o) * Ideal.ofBits .f32 0x32800000#32
      = Ideal.div (Ideal.ofBits .f32 0x00000000#32 + ∑ i, H i) (Ideal.ofBits .f32 0x4C800000#32) := by
  rw [sum_fold H O hO, ofBits_inv, ofBits_pow, Ideal.div_coe (by norm_num)]

end Cert.HuberMean

end
-- ==== Proof.MeanOf.lean ====
/-
  The common result of the two programs: the mean of Huber's loss over the two 16384 × 4096 arrays,
  as the quotient by `2²⁶` of zero plus the total, over the extended reals.
-/
import proofs.«162926_g6820408066431_feedfinal_520_2_alg».proof.Proof.Spec

noncomputable section

namespace Cert.HuberMean

open Idealize.ShloMosaic

/-- The mean of Huber's loss of `x0 - x1`, at the one index of a rank-0 result. -/
def meanOf (x0 x1 : (⟨2, ![16384, 4096]⟩ : Shape).Idx → Ideal .f32) : (⟨0, ![]⟩ : Shape).Idx → Ideal .f32 :=
  fun _ => Ideal.div (Ideal.ofBits .f32 0x00000000#32 + ∑ j, huber (x0 j) (x1 j)) (Ideal.ofBits .f32 0x4C800000#32)

end Cert.HuberMean

end
-- ==== Proof.KernelIdeal.Value.lean ====
/-
  The idealized kernel's run with its result named: the result buffer ends at the mean of Huber's loss
  over the argument arrays. The lines after the region scale the total of the result array (`total`:
  the folded sums) by `2⁻²⁶`; the total of the folded sums is the total over all entries, and scaling
  by `2⁻²⁶` is dividing by `2²⁶`.
-/
import proofs.«162926_g6820408066431_feedfinal_520_2_alg».proof.Proof.KernelIdeal.Result
import proofs.«162926_g6820408066431_feedfinal_520_2_alg».proof.Proof.KernelIdeal.Tail
import proofs.«162926_g6820408066431_feedfinal_520_2_alg».proof.Proof.KernelIdeal.Scaled
import proofs.«162926_g6820408066431_feedfinal_520_2_alg».proof.Proof.Mean
import proofs.«162926_g6820408066431_feedfinal_520_2_alg».proof.Proof.MeanOf

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.HuberMean Cert.KernelIdeal.Scaled Idealize.ShloMosaic.ValueIdx

variable (m : (ℓ : Loc nD τ sig) → Buf (Elt Ideal) ℓ) (ρ : Dev nD → PrngReg)

/-- What the lines after the region leave in the result buffer is the mean. -/
theorem result_eq (c : Dev nD) :
    Pipeline.afterTail₀ cfgs (dats m) 0 (V0 m) [hostOps1] c main_v2
      = meanOf (m ((c.tc : Thread nD τ).loc main_arg0)) (m ((c.tc : Thread nD τ).loc main_arg1)) := by
  rw [tail_result, final]
  funext i
  rw [scaled_apply]
  exact mean_eq (fun j => huber (arr0 m c j) (arr1 m c j)) (total m c) (fun h s l => rfl)

/-- The result buffer is unscoped and no window's array. -/
theorem result_rest : main_v2 ∈ Pipeline.restRefs sig (cfgs 0).spec :=
  Pipeline.mem_restRefs_of main_v2 rfl (fun w => by fin_cases w <;> decide)

/-- Every weakly fair execution of the idealized kernel terminates with the result buffer at the mean and the
    argument arrays unchanged. -/
theorem run : θ_run defs (onTc (τ := τ) (main (F := Ideal))) ⟨m, fun _ => 0, ρ⟩ fun r => ∀ c : Dev nD,
      r.2.mem ((c.tc : Thread nD τ).loc main_v2) = meanOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Fold

end
-- ==== Proof.RefMean.lean ====
/-
  The reference's result over the extended reals: zero plus the sum of Huber's loss over every entry
  of the two arrays, divided by the constant `2²⁶`.
-/
import proofs.«162926_g6820408066431_feedfinal_520_2_alg».proof.Proof.Spec
import proofs.«162926_g6820408066431_feedfinal_520_2_alg».proof.Proof.Gen.ReferenceIdeal.Read

noncomputable section

namespace Cert.ReferenceIdeal.Mean

open Idealize.ShloMosaic Idealize.ShloMosaic.ValueIdx Cert.ReferenceIdeal Cert.ReferenceIdeal.Gen Cert.HuberMean

/-- The reference's elementwise stage at an entry is Huber's loss of the two arrays' entries there. -/
theorem where_apply (x0 x1 : (⟨S16384x4096, .f32⟩ : BufTy).Contents (Elt Ideal)) (j : S16384x4096.Idx) :
    Cert.ReferenceIdeal.Read.val_main_v11 (F := Ideal) x0 x1 j = huber (x0 j) (x1 j) := by
  simp only [Read.val_main_v11_apply, Read.val_main_v3_apply, Read.val_main_v6_apply, Read.val_main_v10_apply,
    Read.val_main_v5_apply, Read.val_main_v8_apply, Read.val_main_v1_apply, Read.val_main_v0_apply,
    Read.val_main_v2_apply, Read.val_main_v4_apply, Read.val_main_v7_apply, Read.val_main_v9_apply,
    Read.val_main_cst_apply, Read.val_main_cst_0_apply, Read.val_main_cst_1_apply, Read.val_main_cst_2_apply,
    Ideal.hostAbsf_def]
  rfl

/-- The reference's one result entry is the quotient by `2²⁶` of zero plus the total of Huber's loss. -/
theorem ref_apply (x0 x1 : (⟨S16384x4096, .f32⟩ : BufTy).Contents (Elt Ideal)) (i : S_.Idx) :
    Cert.ReferenceIdeal.Read.val_main_v13 (F := Ideal) x0 x1 i
      = Ideal.div (Ideal.ofBits .f32 0x00000000#32 + ∑ j : S16384x4096.Idx, huber (x0 j) (x1 j))
          (Ideal.ofBits .f32 0x4C800000#32) := by
  rw [Read.val_main_v13_apply, Read.val_main_v12_apply, Read.val_main_cst_3_apply, Read.val_main_cst_4_apply,
    Ideal.hostDivf_def, Ideal.ofBits_def, Ideal.ofBits_def]
  rw [Finset.sum_congr rfl fun j _ => where_apply x0 x1 j]

end Cert.ReferenceIdeal.Mean

end
-- ==== Proof.lean ====
/-
  Mean Huber loss (threshold 1) of two 16384 × 4096 arrays: a Pallas kernel against `jnp.mean`.

  The kernel walks the rows in 2 × 32 blocks of 256 rows. At each block it computes Huber's loss
  elementwise and folds the block's 256 rows into 8 rows (row `8 r + s` goes to row `s`); the folded
  rows of the 32 blocks of a half are accumulated in one 8 × 4096 output block, overwritten at the half's
  first block and added to at every later one; after the region the 2 × 8 × 4096 partial sums are
  totalled and multiplied by `2⁻²⁶`. The reference computes Huber's loss elementwise with the same
  operations and constants, totals all 16384 × 4096 entries and divides by `2²⁶`.

  Over the extended reals the two agree for every input: the elementwise values are the same term
  (`huber`); `(h, j, r, s) ↦ (32 h + j) · 256 + 8 r + s` is a bijection onto the rows, and sums of
  extended reals may be regrouped freely (addition is commutative and associative there), so the total
  of the partial sums is the total over all entries; and multiplying by `2⁻²⁶` is dividing by `2²⁶` on
  every extended real. No use is made of the inputs' finiteness.

  The frames: the output block's contents after each grid point are defined by recursion on the point
  (`Fold.carried`), the body is run symbolically once per branch, and the library's launch theorem for a
  region followed by host lines gives the run; the same text, generic in the float instance, proves the
  word-level program's frame and the idealized one's. The reference's frame is its run with the result
  dropped. The ideal pass rewrote nothing, so `preserves` is `True`.
-/
import proofs.«162926_g6820408066431_feedfinal_520_2_alg».proof.Defs
import proofs.«162926_g6820408066431_feedfinal_520_2_alg».proof.Proof.Gen.Kernel
import proofs.«162926_g6820408066431_feedfinal_520_2_alg».proof.Proof.Gen.KernelIdeal
import proofs.«162926_g6820408066431_feedfinal_520_2_alg».proof.Proof.Gen.ReferenceIdeal
import proofs.«162926_g6820408066431_feedfinal_520_2_alg».proof.Proof.Gen.Pre_finite_inputs
import proofs.«162926_g6820408066431_feedfinal_520_2_alg».proof.Proof.Gen.ReferenceIdeal.Run
import proofs.«162926_g6820408066431_feedfinal_520_2_alg».proof.Proof.Gen.ReferenceIdeal.Read
import proofs.«162926_g6820408066431_feedfinal_520_2_alg».proof.Proof.Kernel.Carried
import proofs.«162926_g6820408066431_feedfinal_520_2_alg».proof.Proof.KernelIdeal.Value
import proofs.«162926_g6820408066431_feedfinal_520_2_alg».proof.Proof.RefMean
import Idealize.ShloMosaic.Adequacy
import Idealize.ShloMosaic.Init

noncomputable section

namespace Cert.Proof

open Idealize.ShloMosaic Idealize.ShloMosaic.TcCoe Idealize.SL.Sem Cert.HuberMean

theorem frame_kernel : @Cert.frame_Kernel Cert.Kernel.Gen.facts Cert.Pre_finite_inputs.Gen.facts :=
  fun m ρ _ => Cert.Kernel.Fold.frame m ρ

theorem frame_kernelIdeal : @Cert.frame_KernelIdeal Cert.KernelIdeal.Gen.facts Cert.Pre_finite_inputs.Gen.facts :=
  fun m ρ _ => Cert.KernelIdeal.Fold.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the mean of Huber's loss over the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => meanOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  exact Cert.ReferenceIdeal.Mean.ref_apply _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
